-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1 : Shape := ⟨2, ![65536, 1]⟩
abbrev S2048 : Shape := ⟨1, ![2048]⟩
abbrev S2049x1 : Shape := ⟨2, ![2049, 1]⟩
abbrev S_ : Shape := ⟨0, ![]⟩

class Facts : Prop where
  bcast_S_S65536x1 : S_.BroadcastsInDim S65536x1 (![] : Fin 0 → Fin S65536x1.rank)
  reducesTo_S65536x1_S_d0_1 : S65536x1.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2049x1 : S_.BroadcastsInDim S2049x1 (![] : Fin 0 → Fin S2049x1.rank)
  reducesTo_S2049x1_S_d0_1 : S2049x1.ReducesTo [0, 1] S_

variable [Facts]

def fn {F : FTy → Type} [FloatOps F] (main_arg0 : FVec F S65536x1 .f32) (main_arg1 : FVec F S2048 .f32) (main_arg2 : FVec F S2049x1 .f32) : IVec S_ 1 :=
  let main_v0 : FVec F S65536x1 .f32 := Host.absf main_arg0
  let main_cst : FVec F S_ .f32 := constant S_ .f32 0x7F800000#32
  let main_v1 : FVec F S65536x1 .f32 := broadcastInDim S65536x1 ![] bcast_S_S65536x1 main_cst
  let main_v2 : IVec S65536x1 1 := cmpf .olt main_v0 main_v1
  let main_c : IVec S_ 1 := constantI S_ 1 1#1
  let main_v3 : IVec S_ 1 := (fun x v => Host.reduce IntOp.andi x v reducesTo_S65536x1_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2049x1 .f32 := Host.absf main_arg2
  let main_cst_2 : FVec F S_ .f32 := constant S_ .f32 0x7F800000#32
  let main_v10 : FVec F S2049x1 .f32 := broadcastInDim S2049x1 ![] bcast_S_S2049x1 main_cst_2
  let main_v11 : IVec S2049x1 1 := cmpf .olt main_v9 main_v10
  let main_c_3 : IVec S_ 1 := constantI S_ 1 1#1
  let main_v12 : IVec S_ 1 := (fun x v => Host.reduce IntOp.andi x v reducesTo_S2049x1_S_d0_1 h_S_) main_v11 main_c_3
  let main_v13 : IVec S_ 1 := andi main_v8 main_v12
  main_v13
-- ==== Kernel.lean ====
abbrev S65536x1 : Shape := ⟨2, ![65536, 1]⟩
abbrev S2048 : Shape := ⟨1, ![2048]⟩
abbrev S2049x1 : Shape := ⟨2, ![2049, 1]⟩
abbrev S2048x1 : Shape := ⟨2, ![2048, 1]⟩
abbrev S1x2048 : Shape := ⟨2, ![1, 2048]⟩
abbrev S1x1 : Shape := ⟨2, ![1, 1]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 12
  | .vmem => 7
  | .smem => 0
  | _ => 0

abbrev bufTy : (tb : Table) → Fin (tcTables nBuf tb) → BufTy
  | .hbm, ⟨0, _⟩ => ⟨S65536x1, .f32⟩
  | .hbm, ⟨1, _⟩ => ⟨S2048, .f32⟩
  | .hbm, ⟨2, _⟩ => ⟨S2049x1, .f32⟩
  | .hbm, ⟨3, _⟩ => ⟨S2048x1, .f32⟩
  | .hbm, ⟨4, _⟩ => ⟨S2048, .f32⟩
  | .hbm, ⟨5, _⟩ => ⟨S2048x1, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x1, .f32⟩
  | .hbm, ⟨10, _⟩ => ⟨S1x2048, .f32⟩
  | .hbm, ⟨11, _⟩ => ⟨S65536x1, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1x1, .f32⟩
  | .local _ .vmem, ⟨5, _⟩ => ⟨S1024x1, .f32⟩
  | .local _ .vmem, ⟨6, _⟩ => ⟨S1024x1, .f32⟩
  | _, _ => ⟨S65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2049x1_S2048x1_1_0 : S2049x1.Slices ![1, 0] S2048x1
  shapeCasts_S2048x1_S2048 : S2048x1.ShapeCasts S2048
  slices_S2049x1_S2048x1_0_0 : S2049x1.Slices ![0, 0] S2048x1
  shapeCasts_S2048_S1x2048 : S2048.ShapeCasts S1x2048
  slices_S2049x1_S1x1_0_0 : S2049x1.Slices ![0, 0] S1x1
  inb_S1024x1_S1024x1_0_0 : ∀ a, (![0, 0] : Fin 2 → Nat) a + S1024x1.size a ≤ S1024x1.size a
  h_S1024x1 : 0 < S1024x1.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  natLt_1_32 : 1 < 32
  reduces_S1024x2048_S1024 : S1024x2048.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S65536x1.size a
  hwx0_0 : ∀ i : grid0.Coords, EltTy.bits .f32 = 32 ∨ (Rect.block (s := S65536x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S65536x1.size a
  hwx0_4 : ∀ i : grid0.Coords, EltTy.bits .f32 = 32 ∨ (Rect.block (s := S65536x1) S1024x1.size (cc0_transform_4 i) (hinb0_4 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1 : Shape := ⟨2, ![65536, 1]⟩
abbrev S2048 : Shape := ⟨1, ![2048]⟩
abbrev S2049x1 : Shape := ⟨2, ![2049, 1]⟩
abbrev S1x2048 : Shape := ⟨2, ![1, 2048]⟩
abbrev S65536x2048 : Shape := ⟨2, ![65536, 2048]⟩
abbrev S_ : Shape := ⟨0, ![]⟩
abbrev S65536x2047 : Shape := ⟨2, ![65536, 2047]⟩
abbrev S65536x2049 : Shape := ⟨2, ![65536, 2049]⟩

abbrev nBuf : Space → Nat
  | .hbm => 18
  | .vmem => 0
  | .smem => 0
  | _ => 0

abbrev bufTy : (tb : Table) → Fin (tcTables nBuf tb) → BufTy
  | .hbm, ⟨0, _⟩ => ⟨S65536x1, .f32⟩
  | .hbm, ⟨1, _⟩ => ⟨S2048, .f32⟩
  | .hbm, ⟨2, _⟩ => ⟨S2049x1, .f32⟩
  | .hbm, ⟨3, _⟩ => ⟨S1x2048, .f32⟩
  | .hbm, ⟨4, _⟩ => ⟨S65536x2048, .f32⟩
  | .hbm, ⟨5, _⟩ => ⟨S65536x2048, .f32⟩
  | .hbm, ⟨6, _⟩ => ⟨S65536x2048, .i1⟩
  | .hbm, ⟨7, _⟩ => ⟨S65536x2048, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x2047, .f32⟩
  | .hbm, ⟨13, _⟩ => ⟨S65536x2047, .f32⟩
  | .hbm, ⟨14, _⟩ => ⟨S65536x2047, .f32⟩
  | .hbm, ⟨15, _⟩ => ⟨S65536x1, .f32⟩
  | .hbm, ⟨16, _⟩ => ⟨S65536x2049, .f32⟩
  | .hbm, ⟨17, _⟩ => ⟨S65536x1, .f32⟩
  | _, _ => ⟨S65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  slices_S65536x2048_S65536x1_0_0 : S65536x2048.Slices ![0, 0] S65536x1
  bcast_S_S65536x1 : S_.BroadcastsInDim S65536x1 (![] : Fin 0 → Fin S65536x1.rank)
  slices_S65536x2048_S65536x2047_0_0 : S65536x2048.Slices ![0, 0] S65536x2047
  slices_S65536x2048_S65536x2047_0_1 : S65536x2048.Slices ![0, 1] S65536x2047
  slices_S65536x2048_S65536x1_0_2047 : S65536x2048.Slices ![0, 2047] S65536x1
  concatenates_S65536x1_S65536x2047_S65536x1_S65536x2049_d1 : Shape.Concatenates [S65536x1, S65536x2047, S65536x1] S65536x2049 1
  dot_S65536x2049_S2049x1_S65536x1_1_0_0_1_n_n_wf : DotDims.WF S65536x2049 S2049x1 S65536x1 [1] [0] [0] [1] [] []

variable [Facts₀]

def dot_S65536x2049_S2049x1_S65536x1_1_0_0_1_n_n : DotDims S65536x2049 S2049x1 S65536x1 where
  lhsContracting := [1]
  rhsContracting := [0]
  lhsNonContracting := [0]
  rhsNonContracting := [1]
  lhsBatch := []
  rhsBatch := []
  wf := dot_S65536x2049_S2049x1_S65536x1_1_0_0_1_n_n_wf

class Facts : Prop extends Facts₀ where

variable [Facts]
-- ==== Proof.StepLookup.lean ====
/-
  The step-function lookup, as mathematics. For breakpoints `b₀ … b₍ₙ₋₁₎` and values `v₀ … vₙ`, a row whose input is `x`
  has the indicators `hⱼ = 1` where `bⱼ < x` and `0` elsewhere. One arrangement of the lookup weighs the values by the
  differences of neighbouring indicators,

      (1 - h₀) · v₀ + ∑ₖ₌₁ⁿ⁻¹ (hₖ₋₁ - hₖ) · vₖ + hₙ₋₁ · vₙ ,

  the other weighs the differences of neighbouring values by the indicators,

      ∑ⱼ₌₀ⁿ⁻¹ hⱼ · (vⱼ₊₁ - vⱼ) + v₀ .

  The two are equal by summation by parts (`lookup_law`): writing the weight at `k` as `aₖ - bₖ` with `a₀ = 1`,
  `aⱼ₊₁ = hⱼ` and `bⱼ = hⱼ`, `bₙ = 0`, the sum of `aₖ vₖ` splits off its first term and the sum of `bₖ vₖ` its last.
  The law is one of the real numbers: it distributes a product over a difference, which the extended reals do not allow at
  the infinities, so it is stated for real values and carried to the extended reals by the coercion (`coe_sum`).
-/
import Idealize.ShloMosaic.PureOps.Ideal
import Idealize.ShloMosaic.Lib.ValueIdx
import Mathlib.Algebra.BigOperators.Fin
import Mathlib.Tactic.Ring

noncomputable section

namespace Cert.StepLookup

open Idealize.ShloMosaic Idealize.ShloMosaic.ValueIdx

/-! ## The indicator -/

/-- The indicator of `b < x` on the extended reals, as a real number. -/
def above (x b : EReal) : ℝ := if b < x then 1 else 0

/-- The strict comparison's one-bit answer, widened to a word and read as a signed integer, is the indicator. -/
theorem sitofp_cmp (x b : EReal) :
    (((((Ideal.cmp .ogt x b).setWidth 32).toInt : ℤ) : ℝ) : EReal) = ((above x b : ℝ) : EReal) := by
  unfold Ideal.cmp above
  by_cases h : b < x
  · have e : ((BitVec.ofBool true).setWidth 32).toInt = 1 := by decide
    simp only [h, decide_true, if_true, e, Int.cast_one]
  · have e : ((BitVec.ofBool false).setWidth 32).toInt = 0 := by decide
    simp only [h, decide_false, if_false, e, Int.cast_zero]

/-- The strict comparison's one-bit answer read as an unsigned integer is the indicator. -/
theorem uitofp_cmp (x b : EReal) :
    ((((Ideal.cmp .ogt x b).toNat : ℕ) : ℝ) : EReal) = ((above x b : ℝ) : EReal) := by
  unfold Ideal.cmp above
  by_cases h : b < x
  · have e : (BitVec.ofBool true).toNat = 1 := by decide
    simp only [h, decide_true, if_true, e, Nat.cast_one]
  · have e : (BitVec.ofBool false).toNat = 0 := by decide
    simp only [h, decide_false, if_false, e, Nat.cast_zero]

/-! ## Summation by parts -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight the first arrangement gives value `k`: `aₖ - bₖ`, where `a₀ = 1`, `aₖ = hₖ₋₁` for `k ≥ 1`, and `bₖ = hₖ`
    for `k < n`, `bₙ = 0`. -/
def weight {n : ℕ} (h : Fin n → ℝ) (k : Fin (n + 1)) : ℝ :=
  (if hk : k.val = 0 then 1 else h ⟨k.val - 1, by have := k.isLt; omega⟩)
    - (if hk : k.val < n then h ⟨k.val, hk⟩ else 0)

/-- Summation by parts over the reals. -/
theorem parts_real {n : ℕ} (h : Fin n → ℝ) (v : Fin (n + 1) → ℝ) :
    ∑ k : Fin (n + 1), weight h k * v k = (∑ j : Fin n, h j * (v j.succ - v j.castSucc)) + v 0 := by
  unfold weight
  simp only [sub_mul, Finset.sum_sub_distrib]
  rw [Fin.sum_univ_succ (f := fun k : Fin (n + 1) => (if hk : k.val = 0 then (1 : ℝ) else h ⟨k.val - 1, by have := k.isLt; omega⟩) * v k),
    Fin.sum_univ_castSucc (f := fun k : Fin (n + 1) => (if hk : k.val < n then h ⟨k.val, hk⟩ else (0 : ℝ)) * v k)]
  have ea : ∀ j : Fin n, (if hk : (j.succ : Fin (n + 1)).val = 0 then (1 : ℝ) else h ⟨(j.succ : Fin (n + 1)).val - 1, by have := j.isLt; simp only [Fin.val_succ]; omega⟩) = h j := fun j => by
    rw [dif_neg (by simp)]; congr 1
  have eb : ∀ j : Fin n, (if hk : (j.castSucc : Fin (n + 1)).val < n then h ⟨(j.castSucc : Fin (n + 1)).val, hk⟩ else (0 : ℝ)) = h j := fun j => by
    rw [dif_pos (by simp)]; congr 1
  simp only [ea, eb, Fin.val_zero, Fin.val_last, lt_irrefl, ↓reduceDIte, one_mul, zero_mul, add_zero,
    mul_sub, Finset.sum_sub_distrib]
  ring

/-- Summation by parts, read on the extended reals at real values: the two arrangements of the lookup agree. -/
theorem lookup_law {n : ℕ} (h : Fin n → ℝ) (v : Fin (n + 1) → ℝ) :
    ∑ k : Fin (n + 1), ((weight h k : ℝ) : EReal) * ((v k : ℝ) : EReal)
      = (∑ j : Fin n, ((h j : ℝ) : EReal) * (((v j.succ : ℝ) : EReal) - ((v j.castSucc : ℝ) : EReal))) + ((v 0 : ℝ) : EReal) := by
  simp only [← EReal.coe_sub, ← EReal.coe_mul, ← coe_sum, ← EReal.coe_add]
  rw [parts_real]

/-! ## The lookup as one function of the argument arrays -/

/-- The lookup of every row: for the row `i` of the inputs `x`, the differences of neighbouring values weighed by the
    indicators of the breakpoints below `x i`, plus the first value. -/
def lookup (x : (⟨2, ![65536, 1]⟩ : Shape).Idx → EReal) (bp : (⟨1, ![2048]⟩ : Shape).Idx → EReal)
    (v : (⟨2, ![2049, 1]⟩ : Shape).Idx → EReal) : (⟨2, ![65536, 1]⟩ : Shape).Idx → EReal := fun i =>
  (∑ j : Fin 2048, ((above (x i) (bp (ix1 j)) : ℝ) : EReal)
      * (v (ix2 (j.succ : Fin 2049) (0 : Fin 1)) - v (ix2 (j.castSucc : Fin 2049) (0 : Fin 1))))
    + v (ix2 (0 : Fin 2049) (0 : Fin 1))

end Cert.StepLookup

end
-- ==== Proof.KernelBlock.lean ====
/-
  What one grid point's block holds, as a function of the four blocks the body loads: the 1024 inputs of the point's rows,
  the breakpoints, the differences of neighbouring values, and the first value (each of the last three one row). Row `r` of
  the block is the sum over the breakpoints `j` of the indicator of `breakpoint j < input r` times difference `j`, plus the
  first value. The body forms the indicator by comparing the inputs, broadcast along the lanes, with the breakpoints,
  broadcast down the rows, and reading the one-bit answer as a number; the sum is its lane reduction from zero.
-/
import proofs.«159367_j11785390260311_1_alg».proof.Proof.KernelValueP
import proofs.«159367_j11785390260311_1_alg».proof.Proof.StepLookup
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.KernelIdeal.ValueP Idealize.ShloMosaic Idealize.ShloMosaic.TcCoe
open Idealize.ShloMosaic.ValueIdx Cert.StepLookup

/-- One term of the lane sum, at the position in row `y` and lane `j`: the indicator of `breakpoint j < input y` times
    difference `j`. The inputs' column is broadcast along the lanes and the two rows down the rows. -/
theorem term_apply (P0 : Vec Ideal S1024x1 .f32) (P1 P2 : Vec Ideal S1x2048 .f32) (q : S1024x2048.Idx) (y : S1024x1.Idx) (j : Fin 2048)
    (h0 : (q 0).val = (y 0).val) (h1 : (q 1).val = j.val) :
    (mulf (F := Ideal) (sitofp (F := Ideal) .f32 (extui 32 (cmpf (F := Ideal) (φ := .f32) .ogt (broadcastTo S1024x2048 P0 broadcasts_S1024x1_S1024x2048)
        (broadcastTo S1024x2048 (shapeCast S1x2048 P1 shapeCasts_S1x2048_S1x2048) broadcasts_S1x2048_S1024x2048)) natLt_1_32))
      (broadcastTo S1024x2048 (shapeCast S1x2048 P2 shapeCasts_S1x2048_S1x2048) broadcasts_S1x2048_S1024x2048) : FVec Ideal S1024x2048 .f32) q
      = ((above (P0 y) (P1 (ix2 (0 : Fin 1) j)) : ℝ) : EReal) * P2 (ix2 (0 : Fin 1) j) := by
  have hy1 : (y 1).val < 1 := (y 1).isLt
  have e0 : broadcastTo S1024x2048 P0 broadcasts_S1024x1_S1024x2048 q = P0 y :=
    broadcastTo_apply _ _ q y (fun a => match a with
      | ⟨0, _⟩ => by show (y 0).val = (if (1024 : Nat) = 1 then 0 else (q 0).val); rw [if_neg (by decide)]; exact h0.symm
      | ⟨1, _⟩ => by show (y 1).val = (if (1 : Nat) = 1 then 0 else (q 1).val); rw [if_pos rfl]; omega)
  have e1 : ∀ P : Vec Ideal S1x2048 .f32,
      broadcastTo S1024x2048 (shapeCast S1x2048 P shapeCasts_S1x2048_S1x2048) broadcasts_S1x2048_S1024x2048 q = P (ix2 (0 : Fin 1) j) := fun P => by
    rw [shapeCast_self]
    exact broadcastTo_apply _ _ q (ix2 (0 : Fin 1) j) (fun a => match a with
      | ⟨0, _⟩ => by show 0 = (if (1 : Nat) = 1 then 0 else (q 0).val); rw [if_pos rfl]
      | ⟨1, _⟩ => by show j.val = (if (2048 : Nat) = 1 then 0 else (q 1).val); rw [if_neg (by decide)]; exact h1.symm)
  rw [mulf_apply, sitofp_apply, extui_apply, cmpf_apply, e0, e1, e1]
  exact congrArg (fun z : EReal => z * P2 (ix2 (0 : Fin 1) j)) (sitofp_cmp (P0 y) (P1 (ix2 (0 : Fin 1) j)))

/-- The block after the body, row by row. -/
theorem block_apply (P0 : Vec Ideal S1024x1 .f32) (P1 P2 : Vec Ideal S1x2048 .f32) (P3 : Vec Ideal S1x1 .f32) (y : S1024x1.Idx) :
    E4 (F := Ideal) P0 P1 P2 P3 y
      = (∑ j : Fin 2048, ((above (P0 y) (P1 (ix2 (0 : Fin 1) j)) : ℝ) : EReal) * P2 (ix2 (0 : Fin 1) j))
        + P3 (ix2 (0 : Fin 1) (0 : Fin 1)) := by
  have e3 : ix4_1 y = ix2 (0 : Fin 1) (0 : Fin 1) := funext fun a => Fin.ext (by match a with | ⟨0, _⟩ => rfl | ⟨1, _⟩ => rfl)
  show (multiReduction (F := Ideal) .add [1] S1024 _ 0x00000000#32 reduces_S1024x2048_S1024 (.inl rfl) rfl) (ix4_0 y) + P3 (ix4_1 y) = _
  rw [e3]
  refine congrArg (fun z : EReal => z + P3 (ix2 (0 : Fin 1) (0 : Fin 1))) ?_
  refine (Ideal.multiReduction_add_single _ 0x00000000#32 reduces_S1024x2048_S1024 (.inl rfl) rfl (ix4_0 y)).trans ?_
  show ∑ k : Fin 2048, _ = _
  refine Finset.sum_congr rfl fun k _ => ?_
  exact term_apply P0 P1 P2 _ y k rfl rfl

end Cert.KernelIdeal.Block

end
-- ==== Proof.KernelArray.lean ====
/-
  The kernel's result array is the lookup. Before the region the host makes three one-row arrays from the arguments: the
  breakpoints laid as a row, the differences of neighbouring values (the values from the second on minus the values up to the
  last but one) laid as a row, and the first value. The region has 64 points; point `t` loads rows `1024 t … 1024 t + 1023`
  of the inputs and the three rows whole, and writes rows `1024 t … 1024 t + 1023` of the result. So what point `t` writes is
  block `t` of the lookup of the whole arguments, and the 64 blocks cover the result's rows (row `r` lies in block `r / 1024`).
-/
import proofs.«159367_j11785390260311_1_alg».proof.Proof.KernelBlock
import Idealize.ShloMosaic.Lib.ValueLayout
import Idealize.ShloMosaic.Lib.StableHlo.Run

noncomputable section

namespace Cert.KernelIdeal.Lookup

open Cert.KernelIdeal Cert.KernelIdeal.Gen Cert.KernelIdeal.ValueP Cert.KernelIdeal.Block
open Idealize.ShloMosaic Idealize.ShloMosaic.TcCoe Idealize.SL.Sem Idealize.ShloMosaic.StableHlo
open Idealize.ShloMosaic.ValueIdx Cert.StepLookup
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The argument arrays of core `c`, at their shapes: the inputs, the breakpoints, the values. -/
abbrev xArr (c : Dev nD) : FVec Ideal S65536x1 .f32 := m ((c : Thread nD τ).loc main_arg0)
abbrev bpArr (c : Dev nD) : FVec Ideal S2048 .f32 := m ((c : Thread nD τ).loc main_arg1)
abbrev vArr (c : Dev nD) : FVec Ideal S2049x1 .f32 := m ((c : Thread nD τ).loc main_arg2)

/-! ## The three rows the host makes -/

/-- A vector laid as one row, read in that row. -/
theorem row_apply (b : FVec Ideal S2048 .f32) (j : Fin 2048) :
    shapeCast S1x2048 b shapeCasts_S2048_S1x2048 (ix2 (0 : Fin 1) j) = b (ix1 j) :=
  shapeCast_apply _ _ (ix2 (0 : Fin 1) j) (ix1 j) (by
    rw [Shape.rowMajor_val_one, Shape.rowMajor_val_two]; show j.val = 0 * 2048 + j.val; omega)

/-- A one-column matrix read as a vector. -/
theorem col_apply (X : FVec Ideal S2048x1 .f32) (j : Fin 2048) :
    shapeCast S2048 X shapeCasts_S2048x1_S2048 (ix1 j) = X (ix2 j (0 : Fin 1)) :=
  shapeCast_apply _ _ (ix1 j) (ix2 j (0 : Fin 1)) (by
    rw [Shape.rowMajor_val_one, Shape.rowMajor_val_two]; show j.val * 1 + 0 = j.val; omega)

/-- The row of differences at lane `j`: value `j + 1` minus value `j`. -/
theorem diff_apply (v : FVec Ideal S2049x1 .f32) (j : Fin 2048) :
    shapeCast S1x2048 (subf (F := Ideal) (φ := .f32)
        (shapeCast S2048 (extractStridedSlice S2048x1 ![1, 0] v slices_S2049x1_S2048x1_1_0) shapeCasts_S2048x1_S2048)
        (shapeCast S2048 (extractStridedSlice S2048x1 ![0, 0] v slices_S2049x1_S2048x1_0_0) shapeCasts_S2048x1_S2048))
      shapeCasts_S2048_S1x2048 (ix2 (0 : Fin 1) j)
      = v (ix2 (j.succ : Fin 2049) (0 : Fin 1)) - v (ix2 (j.castSucc : Fin 2049) (0 : Fin 1)) := by
  rw [row_apply, subf_apply, col_apply, col_apply,
    slice2_axis0_apply 1 v slices_S2049x1_S2048x1_1_0 j (0 : Fin 1) (j.succ : Fin 2049) (by rw [Fin.val_succ]; omega),
    slice2_axis0_apply 0 v slices_S2049x1_S2048x1_0_0 j (0 : Fin 1) (j.castSucc : Fin 2049) (by simp)]

/-- The first value. -/
theorem first_apply (v : FVec Ideal S2049x1 .f32) :
    extractStridedSlice S1x1 ![0, 0] v slices_S2049x1_S1x1_0_0 (ix2 (0 : Fin 1) (0 : Fin 1)) = v (ix2 (0 : Fin 2049) (0 : Fin 1)) :=
  slice2_axis0_apply 0 v slices_S2049x1_S1x1_0_0 (0 : Fin 1) (0 : Fin 1) (0 : Fin 2049) rfl

/-- The breakpoints' row as the region finds it. -/
theorem bp_arr (c : Dev nD) : (V m c main_v7 : FVec Ideal S1x2048 .f32)
    = shapeCast S1x2048 (bpArr m c) shapeCasts_S2048_S1x2048 := by
  dsimp only [Gen.V, Gen.hostOps0]; after_results; rfl

/-- The differences' row as the region finds it. -/
theorem diff_arr (c : Dev nD) : (V m c main_v5 : FVec Ideal S1x2048 .f32)
    = shapeCast S1x2048 (subf (F := Ideal) (φ := .f32)
        (shapeCast S2048 (extractStridedSlice S2048x1 ![1, 0] (vArr m c) slices_S2049x1_S2048x1_1_0) shapeCasts_S2048x1_S2048)
        (shapeCast S2048 (extractStridedSlice S2048x1 ![0, 0] (vArr m c) slices_S2049x1_S2048x1_0_0) shapeCasts_S2048x1_S2048))
      shapeCasts_S2048_S1x2048 := by
  dsimp only [Gen.V, Gen.hostOps0]; after_results; rfl

/-- The first value's array as the region finds it. -/
theorem first_arr (c : Dev nD) : (V m c main_v6 : FVec Ideal S1x1 .f32)
    = extractStridedSlice S1x1 ![0, 0] (vArr m c) slices_S2049x1_S1x1_0_0 := by
  dsimp only [Gen.V, Gen.hostOps0]; after_results

/-! ## The blocks a point loads -/

/-- The windows' block indices at every point: the inputs and the result move with the point, the three rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The inputs' block at point `t` holds the inputs at the rows the result's block `t` covers. -/
theorem iblk0_apply (c : Dev nD) (t : Fin cfg0.N) (y : S1024x1.Idx) :
    (iblk m c 0 t : Vec Ideal S1024x1 .f32) y
      = (xArr m c) (((cfg0.win 4).blk t).view.emb y) := by
  show V m c main_arg0 (((cfg0.win 0).blk t).view.emb y) = _
  rw [V_main_arg0]
  congr 1

/-- The breakpoints' block is the breakpoints. -/
theorem iblk1_apply (c : Dev nD) (t : Fin cfg0.N) (j : Fin 2048) :
    (iblk m c 1 t : Vec Ideal S1x2048 .f32) (ix2 (0 : Fin 1) j) = (bpArr m c) (ix1 j) := by
  obtain ⟨-, -, b0, b1, -⟩ := idx_facts t
  have e : ((cfg0.win 1).blk t).view.emb (ix2 (0 : Fin 1) j) = ix2 (0 : Fin 1) j := by
    funext a; apply Fin.ext
    match a with
    | ⟨0, _⟩ => show win0_1.index t (0 : Fin 2) * 1 + 1 * 0 = 0; rw [b0]
    | ⟨1, _⟩ => show win0_1.index t (1 : Fin 2) * 2048 + 1 * j.val = j.val; rw [b1]; omega
  show V m c main_v7 (((cfg0.win 1).blk t).view.emb (ix2 (0 : Fin 1) j)) = _
  rw [e]
  exact (congrFun (bp_arr m c) _).trans (row_apply _ j)

/-- The differences' block is the differences of neighbouring values. -/
theorem iblk2_apply (c : Dev nD) (t : Fin cfg0.N) (j : Fin 2048) :
    (iblk m c 2 t : Vec Ideal S1x2048 .f32) (ix2 (0 : Fin 1) j)
      = (vArr m c) (ix2 (j.succ : Fin 2049) (0 : Fin 1))
        - (vArr m c) (ix2 (j.castSucc : Fin 2049) (0 : Fin 1)) := by
  obtain ⟨-, -, -, -, c0, c1, -⟩ := idx_facts t
  have e : ((cfg0.win 2).blk t).view.emb (ix2 (0 : Fin 1) j) = ix2 (0 : Fin 1) j := by
    funext a; apply Fin.ext
    match a with
    | ⟨0, _⟩ => show win0_2.index t (0 : Fin 2) * 1 + 1 * 0 = 0; rw [c0]
    | ⟨1, _⟩ => show win0_2.index t (1 : Fin 2) * 2048 + 1 * j.val = j.val; rw [c1]; omega
  show V m c main_v5 (((cfg0.win 2).blk t).view.emb (ix2 (0 : Fin 1) j)) = _
  rw [e]
  exact (congrFun (diff_arr m c) _).trans (diff_apply _ j)

/-- The first value's block is the first value. -/
theorem iblk3_apply (c : Dev nD) (t : Fin cfg0.N) :
    (iblk m c 3 t : Vec Ideal S1x1 .f32) (ix2 (0 : Fin 1) (0 : Fin 1))
      = (vArr m c) (ix2 (0 : Fin 2049) (0 : Fin 1)) := by
  obtain ⟨-, -, -, -, -, -, d0, d1, -⟩ := idx_facts t
  have e : ((cfg0.win 3).blk t).view.emb (ix2 (0 : Fin 1) (0 : Fin 1)) = ix2 (0 : Fin 1) (0 : Fin 1) := by
    funext a; apply Fin.ext
    match a with
    | ⟨0, _⟩ => show win0_3.index t (0 : Fin 2) * 1 + 1 * 0 = 0; rw [d0]
    | ⟨1, _⟩ => show win0_3.index t (1 : Fin 2) * 1 + 1 * 0 = 0; rw [d1]
  show V m c main_v6 (((cfg0.win 3).blk t).view.emb (ix2 (0 : Fin 1) (0 : Fin 1))) = _
  rw [e]
  exact (congrFun (first_arr m c) _).trans (first_apply _)

/-! ## What a point writes back, the cover, the run -/

/-- The lookup of core `c`'s argument arrays. -/
abbrev result (c : Dev nD) : FVec Ideal S65536x1 .f32 :=
  lookup (xArr m c) (bpArr m c) (vArr m c)

/-- What the body leaves in the result's block, row by row, from the four blocks it loads whole. -/
theorem out_apply (x0 : Vec Ideal S1024x1 .f32) (x1 x2 : Vec Ideal S1x2048 .f32) (x3 : Vec Ideal S1x1 .f32) (y : S1024x1.Idx) :
    out0_4 (F := Ideal) x0 x1 x2 x3 y
      = (∑ j : Fin 2048, ((above (x0 y) (x1 (ix2 (0 : Fin 1) j)) : ℝ) : EReal) * x2 (ix2 (0 : Fin 1) j))
        + x3 (ix2 (0 : Fin 1) (0 : Fin 1)) := by
  have l0 : View.ld x0 r0_0 = x0 := View.ld_unit_zero (S := S1024x1) hz _ x0
  have l1 : View.ld x1 r0_1 = x1 := View.ld_unit_zero (S := S1x2048) hz _ x1
  have l2 : View.ld x2 r0_1 = x2 := View.ld_unit_zero (S := S1x2048) hz _ x2
  have l3 : View.ld x3 r0_2 = x3 := View.ld_unit_zero (S := S1x1) hz _ x3
  unfold out0_4
  rw [l0, l1, l2, l3, canon4_eq, block_apply]

/-- What point `t` writes back is block `t` of the lookup. -/
theorem flushed_eq (c : Dev nD) (t : Fin cfg0.N) :
    (dats m 0 c).flushed 4 t = ((cfg0.win 4).blk t).view.read (Elt Ideal) (result m c) := by
  rw [flushed4]
  funext y
  show out0_4 (F := Ideal) (iblk m c 0 t) (iblk m c 1 t) (iblk m c 2 t) (iblk m c 3 t) y
    = result m c (((cfg0.win 4).blk t).view.emb y)
  refine (out_apply (iblk m c 0 t) (iblk m c 1 t) (iblk m c 2 t) (iblk m c 3 t) y).trans ?_
  rw [iblk0_apply, iblk3_apply]
  simp only [iblk1_apply, iblk2_apply]
  rfl

/-- An index of the result is in point `t`'s block iff each coordinate is in the block's range on its axis. -/
theorem mem_blk (t : Fin cfg0.N) (i : S65536x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- Every row of the result lies in the block of the point `row / 1024`. -/
theorem cover (i : S65536x1.Idx) : ∃ t : Fin cfg0.N, (cfg0.win 4).flush t = true ∧ i ∈ ((cfg0.win 4).blk t).view.set := by
  have hi0 : (i 0).val < 65536 := (i 0).isLt
  have hi1 : (i 1).val < 1 := (i 1).isLt
  have hN : cfg0.N = 64 := N_0
  have ht : (i 0).val / 1024 < cfg0.N := by rw [hN]; omega
  obtain ⟨-, -, -, -, -, -, -, -, e0, e1⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 1 ≤ (i 1).val ∧ (i 1).val < win0_4.index ⟨(i 0).val / 1024, ht⟩ (1 : Fin 2) * 1 + 1
    rw [e1]; omega

/-- The result array after the run is the lookup. -/
theorem final (c : Dev nD) : (dats m 0 c).arrAt 4 cfg0.N = result m c :=
  (dats m 0 c).arrAt_eq_of_cover 4 (result m c) (fun t _ => flushed_eq m c t) (cover)

/-- The run, read: the result array at the lookup of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Lookup

end
-- ==== Proof.ReferenceLookup.lean ====
/-
  The reference's result, row by row. The reference builds the indicators `hⱼ` of `breakpoint j < input` for every row,
  lays the one-hot regions `1 - h₀`, `hₖ₋₁ - hₖ` (for `1 ≤ k ≤ 2047`) and `h₂₀₄₇` side by side along the columns, and takes
  the matrix product with the column of values. Read at a row, the product is the sum over the 2049 columns of the
  region's entry times the value; the entry at column `k` is the weight `aₖ - bₖ` of the summation-by-parts law, so for real
  values the product is the lookup in its other arrangement (`result_eq`).
-/
import proofs.«159367_j11785390260311_1_alg».proof.Proof.Gen.ReferenceIdeal.Read
import proofs.«159367_j11785390260311_1_alg».proof.Proof.StepLookup
import Idealize.ShloMosaic.Lib.Pipeline.Value
import Idealize.ShloMosaic.Lib.ValueIdx

noncomputable section

namespace Cert.ReferenceIdeal.Lookup

open Cert.ReferenceIdeal Cert.ReferenceIdeal.Gen Cert.ReferenceIdeal.Read Idealize.ShloMosaic Idealize.ShloMosaic.TcCoe
open Idealize.ShloMosaic.ValueIdx Cert.StepLookup

variable (x0 : (⟨S65536x1, .f32⟩ : BufTy).Contents (Elt Ideal)) (x1 : (⟨S2048, .f32⟩ : BufTy).Contents (Elt Ideal))

/-- The word of the float one is the real number one. -/
theorem one_word : Ideal.ofBits .f32 0x3F800000#32 = 1 := by simp [Ideal.ofBits, Ideal.ieee, -EReal.coe_mul]; norm_num

/-- The indicator array at a position in row `i`'s row and column `j`: the indicator of `breakpoint j < input i`. -/
theorem ind_at (i : S65536x1.Idx) (q : S65536x2048.Idx) (j : Fin 2048) (h0 : (q 0).val = (i 0).val) (h1 : (q 1).val = j.val) :
    val_main_v4 (F := Ideal) x0 x1 q = ((above (x0 i) (x1 (ix1 j)) : ℝ) : EReal) := by
  have hi1 : (i 1).val < 1 := (i 1).isLt
  have e0 : idx_main_v1 q = i := funext fun a => Fin.ext (by
    match a with
    | ⟨0, _⟩ => exact h0
    | ⟨1, _⟩ => show 0 = (i 1).val; omega)
  have e1 : idx_main_v0 (idx_main_v2 q) = ix1 j := funext fun a => Fin.ext (by
    match a with
    | ⟨0, _⟩ => exact h1)
  rw [val_main_v4_apply, val_main_v3_apply, val_main_v1_apply, val_main_v2_apply, val_main_v0_apply, e0, e1]
  exact uitofp_cmp _ _

/-- The three pieces the reference lays side by side along the columns. -/
abbrev pieces : List ((s : Shape) × (s.Idx → Elt Ideal .f32)) :=
  [⟨S65536x1, val_main_v7 (F := Ideal) x0 x1⟩, ⟨S65536x2047, val_main_v10 (F := Ideal) x0 x1⟩, ⟨S65536x1, val_main_v11 (F := Ideal) x0 x1⟩]

/-- The regions' entry in row `i` and column `k` is the weight of value `k`: the first column comes from the piece
    `1 - h₀`, the columns `1 … 2047` from the piece of differences `hₖ₋₁ - hₖ`, the last from `h₂₀₄₇`. -/
theorem region_at (i : S65536x1.Idx) (k : Fin 2049) :
    val_main_v12 (F := Ideal) x0 x1 (lidx_main_v13 i k)
      = ((weight (fun j : Fin 2048 => above (x0 i) (x1 (ix1 j))) k : ℝ) : EReal) := by
  have hi1 : (i 1).val < 1 := (i 1).isLt
  have hk : k.val < 2049 := k.isLt
  unfold val_main_v12 weight
  by_cases hk0 : k.val = 0
  · rw [dif_pos hk0, dif_pos (by omega : k.val < 2048)]
    refine (concatenate_apply_piece (t := S65536x2049) (1 : Fin 2) (pieces x0 x1) concatenates_S65536x1_S65536x2047_S65536x1_S65536x2049_d1 (lidx_main_v13 i k)
      0 (by show 0 < 3; omega) S65536x1 (val_main_v7 (F := Ideal) x0 x1) rfl rfl 0 (by rfl) i
      (fun b hb => match b with
        | ⟨0, _⟩ => rfl
        | ⟨1, _⟩ => absurd rfl hb)
      (by show 0 + (i 1).val = k.val; omega)).trans ?_
    rw [val_main_v7_apply, val_main_v6_apply, val_main_cst_apply, val_main_v5_apply,
      ind_at x0 x1 i (idx_main_v5 i) ⟨k.val, by omega⟩ rfl (by show (i 1).val = k.val; omega)]
    show Ideal.ofBits .f32 0x3F800000#32 - _ = _
    rw [one_word, EReal.coe_sub, EReal.coe_one]
  · rw [dif_neg hk0]
    by_cases hk1 : k.val < 2048
    · rw [dif_pos hk1]
      refine (concatenate_apply_piece (t := S65536x2049) (1 : Fin 2) (pieces x0 x1) concatenates_S65536x1_S65536x2047_S65536x1_S65536x2049_d1 (lidx_main_v13 i k)
        1 (by show 1 < 3; omega) S65536x2047 (val_main_v10 (F := Ideal) x0 x1) rfl rfl 1 (by rfl)
        (ix2 (⟨(i 0).val, (i 0).isLt⟩ : Fin 65536) (⟨k.val - 1, by omega⟩ : Fin 2047))
        (fun b hb => match b with
          | ⟨0, _⟩ => rfl
          | ⟨1, _⟩ => absurd rfl hb)
        (by show 1 + (k.val - 1) = k.val; omega)).trans ?_
      rw [val_main_v10_apply, val_main_v8_apply, val_main_v9_apply,
        ind_at x0 x1 i (idx_main_v8 _) ⟨k.val - 1, by omega⟩ rfl rfl,
        ind_at x0 x1 i (idx_main_v9 _) ⟨k.val, hk1⟩ rfl (by show 1 + (k.val - 1) = k.val; omega)]
      show ((_ : ℝ) : EReal) - ((_ : ℝ) : EReal) = _
      rw [EReal.coe_sub]
    · rw [dif_neg hk1, sub_zero]
      refine (concatenate_apply_piece (t := S65536x2049) (1 : Fin 2) (pieces x0 x1) concatenates_S65536x1_S65536x2047_S65536x1_S65536x2049_d1 (lidx_main_v13 i k)
        2 (by show 2 < 3; omega) S65536x1 (val_main_v11 (F := Ideal) x0 x1) rfl rfl 2048 (by rfl) i
        (fun b hb => match b with
          | ⟨0, _⟩ => rfl
          | ⟨1, _⟩ => absurd rfl hb)
        (by show 2048 + (i 1).val = k.val; omega)).trans ?_
      rw [val_main_v11_apply, ind_at x0 x1 i (idx_main_v11 i) ⟨k.val - 1, by omega⟩ rfl (by show 2047 + (i 1).val = k.val - 1; omega)]

/-- For real values the reference's result is the lookup: the product's sum over the columns, each term a weight times a
    value, is rearranged by summation by parts. -/
theorem result_eq (x2 : (⟨S2049x1, .f32⟩ : BufTy).Contents (Elt Ideal)) (hv : ∀ i, ∃ r : ℝ, x2 i = ((r : ℝ) : EReal)) :
    val_main_v13 (F := Ideal) x0 x1 x2 = lookup x0 x1 x2 := by
  choose vr hvr using hv
  funext i
  have hi1 : (i 1).val < 1 := (i 1).isLt
  rw [val_main_v13_apply]
  have hr : ∀ k : Fin 2049, x2 (ridx_main_v13 i k) = ((vr (ix2 k (0 : Fin 1)) : ℝ) : EReal) := fun k => by
    rw [← hvr]
    congr 1
    funext a
    apply Fin.ext
    match a with
    | ⟨0, _⟩ => rfl
    | ⟨1, _⟩ => show (i 1).val = 0; omega
  refine (Finset.sum_congr rfl fun k _ => by rw [region_at, hr]).trans ?_
  refine (lookup_law (n := 2048) (fun j : Fin 2048 => above (x0 i) (x1 (ix1 j))) (fun k : Fin 2049 => vr (ix2 k (0 : Fin 1)))).trans ?_
  unfold lookup
  simp only [hvr]

end Cert.ReferenceIdeal.Lookup

end
-- ==== Proof.FiniteValues.lean ====
/-
  Every value is a real number. The precondition says of each of the three arguments that every entry's absolute value is
  below plus infinity; it is the conjunction of the three, each an "all" over the argument's entries. Of the values this
  gives: no entry is plus or minus infinity, so each is (the image of) a real number — which is what summation by parts needs,
  since it distributes a product over a difference.
-/
import proofs.«159367_j11785390260311_1_alg».proof.Defs
import Idealize.ShloMosaic.Lib.ReduceAll
import Idealize.ShloMosaic.Lib.ValueIdx

noncomputable section

namespace Cert.FiniteValues

open Idealize.ShloMosaic Idealize.ShloMosaic.ValueIdx Cert.Pre_finite_inputs

instance : Subsingleton S_.Idx := ⟨fun a b => funext fun d => d.elim0⟩

/-- An extended real whose absolute value is strictly below the word of plus infinity is a real number. -/
theorem real_of_lt_inf (x : EReal) (h : Ideal.cmp .olt (max x (-x)) (Ideal.ofBits .f32 0x7F800000#32) = 1#1) :
    ∃ r : ℝ, x = ((r : ℝ) : EReal) := by
  have hinf : Ideal.ofBits .f32 0x7F800000#32 = ⊤ := by simp [Ideal.ofBits, Ideal.ieee]
  rw [hinf] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | coe r => exact ⟨r, rfl⟩
  | top => simp at hlt

variable [hP : Cert.Pre_finite_inputs.Facts]

/-- Under the precondition every entry of the values is a real number. -/
theorem values_real (a0 : FVec Ideal S65536x1 .f32) (a1 : FVec Ideal S2048 .f32) (a2 : FVec Ideal S2049x1 .f32)
    (h : Cert.Pre_finite_inputs.fn (F := Ideal) a0 a1 a2 = fun _ => 1#1) (i : S2049x1.Idx) :
    ∃ r : ℝ, a2 i = ((r : ℝ) : EReal) := by
  have h0 := congrFun h ix0
  dsimp only [Cert.Pre_finite_inputs.fn] at h0
  have h12 := (IntOp.andi_eq_one.mp h0).2
  have hel := Host.reduce_andi_all _ _ _ _ ix0 h12 i
  exact real_of_lt_inf (a2 i) hel

end Cert.FiniteValues

end
-- ==== Proof.lean ====
/-
  A step-function lookup: for every row's input `x`, the value of a step function with breakpoints `b₀ … b₂₀₄₇` and values
  `v₀ … v₂₀₄₈`. With the indicators `hⱼ = 1` where `bⱼ < x` and `0` elsewhere, the kernel computes, a block of 1024 rows at a
  grid point,

      ∑ⱼ hⱼ · (vⱼ₊₁ - vⱼ) + v₀ ,

  the differences `vⱼ₊₁ - vⱼ` formed once by the host before the region. The reference lays out the one-hot regions
  `1 - h₀`, `hₖ₋₁ - hₖ`, `h₂₀₄₇` and multiplies them into the column of values:

      (1 - h₀) · v₀ + ∑ₖ (hₖ₋₁ - hₖ) · vₖ + h₂₀₄₇ · v₂₀₄₈ .

  The two agree by summation by parts (Proof/StepLookup.lean). That law distributes products over differences, which the
  extended reals allow only away from the infinities, so it is used at real values: the precondition says every entry of the
  values is finite (Proof/FiniteValues.lean). The comparison is the same on both sides and needs nothing of the inputs or
  the breakpoints.
  Proof/KernelBlock.lean reads one point's block as that sum; Proof/KernelArray.lean reads the host's three rows and the
  blocks off the arguments, shows that point `t` writes block `t` of the lookup and that the blocks cover the result;
  Proof/ReferenceLookup.lean reads the reference's product at a row and rearranges it. The idealization rewrote nothing, so
  `preserves` has no conjunct.
-/
import proofs.«159367_j11785390260311_1_alg».proof.Defs
import proofs.«159367_j11785390260311_1_alg».proof.Proof.Gen.Kernel
import proofs.«159367_j11785390260311_1_alg».proof.Proof.Gen.Kernel.Skeleton
import proofs.«159367_j11785390260311_1_alg».proof.Proof.Gen.Kernel.Launch
import proofs.«159367_j11785390260311_1_alg».proof.Proof.Gen.Kernel.Points
import proofs.«159367_j11785390260311_1_alg».proof.Proof.Gen.Kernel.Frame
import proofs.«159367_j11785390260311_1_alg».proof.Proof.Gen.KernelIdeal
import proofs.«159367_j11785390260311_1_alg».proof.Proof.Gen.KernelIdeal.Skeleton
import proofs.«159367_j11785390260311_1_alg».proof.Proof.Gen.KernelIdeal.Launch
import proofs.«159367_j11785390260311_1_alg».proof.Proof.Gen.KernelIdeal.Points
import proofs.«159367_j11785390260311_1_alg».proof.Proof.Gen.KernelIdeal.Frame
import proofs.«159367_j11785390260311_1_alg».proof.Proof.Gen.ReferenceIdeal
import proofs.«159367_j11785390260311_1_alg».proof.Proof.Gen.Pre_finite_inputs
import proofs.«159367_j11785390260311_1_alg».proof.Proof.Gen.ReferenceIdeal.Run
import proofs.«159367_j11785390260311_1_alg».proof.Proof.Gen.ReferenceIdeal.Read
import proofs.«159367_j11785390260311_1_alg».proof.Proof.KernelValueP
import proofs.«159367_j11785390260311_1_alg».proof.Proof.KernelArray
import proofs.«159367_j11785390260311_1_alg».proof.Proof.ReferenceLookup
import proofs.«159367_j11785390260311_1_alg».proof.Proof.FiniteValues
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the lookup of the arguments in their result: the kernel block by block, the reference by
    summation by parts at the values, which the precondition makes real numbers. -/
theorem algebraic : Cert.algebraic_KernelIdeal_ReferenceIdeal := by
  intro m ρ m' ρ' hpre hagree
  refine ⟨_, Cert.KernelIdeal.Lookup.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2]
  exact Cert.ReferenceIdeal.Lookup.result_eq _ _ _ (fun i => Cert.FiniteValues.values_real _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
